-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S3200000 .f32) (main_arg2 : FVec F S64x64 .f32) (main_arg3 : FVec F S64 .f32) (main_arg4 : IVec S3200000 32) (main_arg5 : IVec S3200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S5000x64 : Shape := ⟨2, ![5000, 64]⟩

abbrev nBuf : Space → Nat
  | .hbm => 24
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S3200000, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x64, .f32⟩
  | .hbm, ⟨15, _⟩ => ⟨S3200000x1, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S1x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000, .f32⟩
  | .hbm, ⟨2, _⟩ => ⟨S64x64, .f32⟩
  | .hbm, ⟨3, _⟩ => ⟨S64, .f32⟩
  | .hbm, ⟨4, _⟩ => ⟨S3200000, .i32⟩
  | .hbm, ⟨5, _⟩ => ⟨S3200000, .i32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S3200000x64, .f32⟩
  | .hbm, ⟨15, _⟩ => ⟨S3200000x1, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.NodeUpdate.lean ====
/-
  One layer's node update, as ONE function of whole arrays. With x the node states [100000, 64], W the weights [64, 64],
  b the bias [64] and A the aggregated messages [100000, 64], node p's feature q is

      update x W b A (p, q) = (Σ over k < 64 of x(p, k) · W(k, q)  +  b(q))  +  A(p, q)

  on the extended reals. The sum is a finite sum in a commutative monoid, so neither the order in which a matrix unit
  accumulates the 64 products nor a zero it starts from changes it; the two outer additions are kept in the order both
  programs perform them (first the bias, then the messages), so no regrouping law — and with it no finiteness of the
  inputs — is needed to compare them.
-/
import Idealize.ShloMosaic.Lib.ValueIdx

noncomputable section

open scoped BigOperators

namespace Cert.NodeUpdate

open Idealize.ShloMosaic Idealize.ShloMosaic.ValueIdx

/-- The updated node states: the linear map of a node's own state, plus the bias, plus its aggregated messages. -/
def update (x : FVec Ideal ⟨2, ![100000, 64]⟩ .f32) (W : FVec Ideal ⟨2, ![64, 64]⟩ .f32) (b : FVec Ideal ⟨1, ![64]⟩ .f32)
    (A : FVec Ideal ⟨2, ![100000, 64]⟩ .f32) : FVec Ideal ⟨2, ![100000, 64]⟩ .f32 :=
  fun i => (∑ k : Fin 64, x (ix2 (n0 := 100000) (n1 := 64) (i 0) k) * W (ix2 (n0 := 64) (n1 := 64) k (i 1))
      + b (ix1 (n := 64) (i 1))) + A i

/-- The update read at node p, feature q. -/
theorem update_apply (x : FVec Ideal ⟨2, ![100000, 64]⟩ .f32) (W : FVec Ideal ⟨2, ![64, 64]⟩ .f32) (b : FVec Ideal ⟨1, ![64]⟩ .f32)
    (A : FVec Ideal ⟨2, ![100000, 64]⟩ .f32) (p : Fin 100000) (q : Fin 64) :
    update x W b A (ix2 p q) = (∑ k : Fin 64, x (ix2 p k) * W (ix2 k q) + b (ix1 q)) + A (ix2 p q) := rfl

end Cert.NodeUpdate

end
-- ==== Proof.BlockValue.lean ====
/-
  What the kernel body computes on one block of 5000 nodes, read at one element. From the four blocks it loads — a block xb of
  node states [5000, 64], the weights W [64, 64], the bias as a row bb [1, 64], a block ab of aggregated messages [5000, 64] — the
  stored value at row r, feature q is

      (Σ over k < 64 of xb(r, k) · W(k, q)  +  bb(0, q))  +  ab(r, q).

  Three readings make it up. The matrix unit's product of the two operands (narrowed to a shorter float format first, which on
  the extended reals changes nothing) into a zero accumulator is the plain sum over the contracted axis. The bias row, cast to
  its own shape and broadcast down the 5000 rows, reads row 0 at every row. A cast of a block to its own shape is the block.
-/
import proofs.«155253_j8907762172421_1_alg».proof.Proof.Gen.KernelIdeal.Skeleton
import proofs.«155253_j8907762172421_1_alg».proof.Proof.LibOuterDot
import proofs.«155253_j8907762172421_1_alg».proof.Proof.NodeUpdate
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- The product of a [5000, 64] block with a [64, 64] matrix, accumulated from zero, at (r, q): the sum over the shared axis. -/
theorem product_at (A : FVec Ideal S5000x64 .bf16) (B : FVec Ideal S64x64 .bf16) (r : Fin 5000) (q : Fin 64) :
    matmul dot_S5000x64_S64x64_S5000x64_1_0_0_1_n_n none A B (constant (F := Ideal) S5000x64 .f32 0x00000000#32) (ix2 r q)
      = ∑ k : Fin 64, A (ix2 r k) * B (ix2 k q) :=
  Cert.LibOuterDot.matmul_zero_ix2 (M := 5000) (K := 64) (N := 64) dot_S5000x64_S64x64_S5000x64_1_0_0_1_n_n
    rfl rfl rfl rfl rfl rfl rfl rfl none A B r q

/-- A [1, 64] row broadcast down 5000 rows reads its one row everywhere. -/
theorem row_at (bb : FVec Ideal S1x64 .f32) (h : S1x64.Broadcasts S5000x64) (r : Fin 5000) (q : Fin 64) :
    broadcastTo S5000x64 bb h (ix2 r q) = bb (ix2 (0 : Fin 1) q) := by
  refine broadcastTo_apply bb h (ix2 r q) (ix2 (0 : Fin 1) q) ?_
  intro a
  match a with
  | ⟨0, _⟩ => show (0 : ℕ) = if (1 : ℕ) = 1 then 0 else r.val; rw [if_pos rfl]
  | ⟨1, _⟩ => show q.val = if (64 : ℕ) = 1 then 0 else q.val; rw [if_neg (by decide)]

/-- The body's stored value as its tree of operations on the four loaded blocks. -/
theorem payload_eq (xb : Vec Ideal S5000x64 .f32) (W : Vec Ideal S64x64 .f32) (bb : Vec Ideal S1x64 .f32) (ab : Vec Ideal S5000x64 .f32) :
    k0_pay1 (F := Ideal) xb W bb ab
      = addf (addf (matmul dot_S5000x64_S64x64_S5000x64_1_0_0_1_n_n none (truncf .bf16 xb bitsLt_bf16_f32) (truncf .bf16 W bitsLt_bf16_f32)
            (constant (F := Ideal) S5000x64 .f32 0x00000000#32))
          (broadcastTo S5000x64 (shapeCast S1x64 bb shapeCasts_S1x64_S1x64) broadcasts_S1x64_S5000x64))
        (shapeCast S5000x64 ab shapeCasts_S5000x64_S5000x64) := rfl

/-- The stored value at row r, feature q of the block. -/
theorem payload_apply (xb : Vec Ideal S5000x64 .f32) (W : Vec Ideal S64x64 .f32) (bb : Vec Ideal S1x64 .f32) (ab : Vec Ideal S5000x64 .f32)
    (r : Fin 5000) (q : Fin 64) :
    k0_pay1 (F := Ideal) xb W bb ab (ix2 r q)
      = (∑ k : Fin 64, xb (ix2 r k) * W (ix2 k q) + bb (ix2 (0 : Fin 1) q)) + ab (ix2 r q) := by
  rw [payload_eq, addf_apply, addf_apply, product_at, shapeCast_self, shapeCast_self, row_at]
  rfl

/-- A block's element is the whole-array update's element: if row r of the node-state and message blocks is row p of the whole
    arrays, the weight block is the weight matrix and the bias row is the bias, then the stored value at (r, q) is the update of
    the whole arrays at (p, q). -/
theorem payload_is_update (X : FVec Ideal ⟨2, ![100000, 64]⟩ .f32) (Wt : FVec Ideal ⟨2, ![64, 64]⟩ .f32) (b : FVec Ideal ⟨1, ![64]⟩ .f32)
    (A : FVec Ideal ⟨2, ![100000, 64]⟩ .f32)
    (xb : Vec Ideal S5000x64 .f32) (W : Vec Ideal S64x64 .f32) (bb : Vec Ideal S1x64 .f32) (ab : Vec Ideal S5000x64 .f32)
    (p : Fin 100000) (r : Fin 5000) (q : Fin 64)
    (hx : ∀ k : Fin 64, xb (ix2 r k) = X (ix2 p k)) (hW : ∀ k : Fin 64, W (ix2 k q) = Wt (ix2 k q))
    (hb : bb (ix2 (0 : Fin 1) q) = b (ix1 q)) (ha : ab (ix2 r q) = A (ix2 p q)) :
    k0_pay1 (F := Ideal) xb W bb ab (ix2 r q) = Cert.NodeUpdate.update X Wt b A (ix2 p q) := by
  rw [payload_apply, Cert.NodeUpdate.update_apply, hb, ha]
  refine congrArg (fun s : EReal => (s + b (ix1 q)) + A (ix2 p q)) ?_
  exact Finset.sum_congr rfl fun k _ => by rw [hx k, hW k]

end Cert.KernelIdeal.BlockValue

end
-- ==== Proof.ArrayValue.lean ====
/-
  The kernel's result array as one function of the argument arrays. The 100000 nodes are cut into 20 blocks of 5000 rows; grid
  point t stages rows 5000·t … 5000·t + 4999 of the node states and of the aggregated messages, the whole weight matrix and the
  whole bias row, and writes back rows 5000·t … 5000·t + 4999 of the result. Row r of block t is row 5000·t + r of the array, so
  what point t writes back is block t of the whole-array update (Proof/NodeUpdate.lean), and since every row p lies in block
  p / 5000 the blocks cover the array: after the run the result array IS the update of the argument arrays.

  Two of the staged arrays are written by the host operations before the kernel: the bias reshaped from [64] to a row [1, 64],
  whose entry (0, q) is the bias at q; and the aggregated messages — each edge's source row gathered, scaled by the edge weight and
  summed into its destination row — which this module only names (`messages`) and never opens: the reference computes the same term.
-/
import proofs.«155253_j8907762172421_1_alg».proof.Proof.Gen.KernelIdeal.Value
import proofs.«155253_j8907762172421_1_alg».proof.Proof.BlockValue
import proofs.«155253_j8907762172421_1_alg».proof.Proof.NodeUpdate
import Idealize.ShloMosaic.Lib.StableHlo.Run
import Idealize.ShloMosaic.Lib.ValueIdx
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two host-written arrays the kernel stages -/

/-- The aggregated messages as the host operations before the kernel compute them from the node states x, the edge weights e and
    the edges' source and destination indices: for every edge, row src of x (a negative index counted from the end) times the
    edge's weight, added into row dst of a zero array. -/
def messages (x : FVec Ideal S100000x64 .f32) (e : FVec Ideal S3200000 .f32) (src dst : IVec S3200000 32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf (broadcastInDim S3200000x64 ![0, 1] bcast_S3200000x1_S3200000x64_0_1 (broadcastInDim S3200000x1 ![0] bcast_S3200000_S3200000x1_0 e))
      (Host.gather gather_S100000x64_S3200000x1_S3200000x64_1_0_n_n_0_1_164 x
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))

/-- When the kernel is entered, the array its fourth window stages holds the aggregated messages of the arguments. -/
theorem staged_messages (c : Dev nD) :
    (V m c main_v12 : S100000x64.Idx → EReal)
      = messages (m ((c : Thread nD τ).loc main_arg0)) (m ((c : Thread nD τ).loc main_arg1)) (m ((c : Thread nD τ).loc main_arg4))
          (m ((c : Thread nD τ).loc main_arg5)) := by
  dsimp only [V, hostOps0]; after_results; rfl

/-- When the kernel is entered, the row its third window stages holds the bias: entry (0, q) is the bias at q. -/
theorem staged_bias (c : Dev nD) (q : Fin 64) :
    (V m c main_v13 : S1x64.Idx → EReal) (ix2 (0 : Fin 1) q) = (m ((c : Thread nD τ).loc main_arg3) : S64.Idx → EReal) (ix1 q) := by
  have e : (V m c main_v13 : S1x64.Idx → EReal) = shapeCast S1x64 (m ((c : Thread nD τ).loc main_arg3) : S64.Idx → EReal) shapeCasts_S64_S1x64 := by
    dsimp only [V, hostOps0]; after_results; rfl
  rw [e]
  refine shapeCast_apply _ _ (ix2 (0 : Fin 1) q) (ix1 q) ?_
  rw [Shape.rowMajor_val_one, Shape.rowMajor_val_two]
  show q.val = 0 * 64 + q.val
  omega

/-! ## The result array -/

/-- The update of the argument arrays: what the result array ends holding. -/
abbrev result (c : Dev nD) : FVec Ideal S100000x64 .f32 :=
  Cert.NodeUpdate.update (m ((c : Thread nD τ).loc main_arg0)) (m ((c : Thread nD τ).loc main_arg2)) (m ((c : Thread nD τ).loc main_arg3))
    (messages (m ((c : Thread nD τ).loc main_arg0)) (m ((c : Thread nD τ).loc main_arg1)) (m ((c : Thread nD τ).loc main_arg4))
      (m ((c : Thread nD τ).loc main_arg5)))

theorem zero_offsets : (![0, 0] : Fin 2 → Nat) = fun _ => 0 := funext fun a => by fin_cases a <;> rfl

/-- The printed index maps over the 20 grid points: the node-state, message and result windows are at block t along the rows, the
    weight and bias windows always at block 0, and every window at block 0 along the features. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The message window's block at a grid point, read at an element, is the array it is cut from at that element's place, whatever
    the array holds: reading a block is composing the array with the block's embedding into it. -/
theorem read_messages_block (t : Fin cfg0.N) (X : ((cfg0.win 3).blk t).view.ty.Contents (Elt Ideal))
    (y : ((cfg0.win 3).xblock (cfg0.grid.coords t)).Idx) :
    ((cfg0.win 3).blk t).view.read (Elt Ideal) X y = X (((cfg0.win 3).blk t).view.emb y) := rfl

/-- WHAT POINT t WRITES BACK is block t of the update of the argument arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31, e40, e41⟩ := block_indices t
  have ht : t.val < 20 := lt_of_lt_of_eq t.isLt N_0
  funext j
  obtain ⟨r, q, rfl⟩ : ∃ (r : Fin 5000) (q : Fin 64), j = ix2 r q := ⟨j 0, j 1, eq_ix2 j⟩
  have hr : r.val < 5000 := r.isLt
  have hq : q.val < 64 := q.isLt
  show k0_pay1 (F := Ideal) (iblk m c 0 t) (iblk m c 1 t) (iblk m c 2 t) (iblk m c 3 t) (ix2 r q)
    = result m c (((cfg0.win 4).blk t).view.emb (ix2 r q))
  have hp : ((cfg0.win 4).blk t).view.emb (ix2 r q) = ix2 (⟨t.val * 5000 + r.val, by omega⟩ : Fin 100000) q := by
    funext a; apply Fin.ext
    match a with
    | ⟨0, _⟩ => show win0_4.index t (0 : Fin 2) * 5000 + 1 * r.val = t.val * 5000 + r.val; omega
    | ⟨1, _⟩ => show win0_4.index t (1 : Fin 2) * 64 + 1 * q.val = q.val; omega
  rw [hp]
  refine Cert.KernelIdeal.BlockValue.payload_is_update (m ((c : Thread nD τ).loc main_arg0)) (m ((c : Thread nD τ).loc main_arg2))
    (m ((c : Thread nD τ).loc main_arg3)) (messages (m ((c : Thread nD τ).loc main_arg0)) (m ((c : Thread nD τ).loc main_arg1))
      (m ((c : Thread nD τ).loc main_arg4)) (m ((c : Thread nD τ).loc main_arg5)))
    (iblk m c 0 t) (iblk m c 1 t) (iblk m c 2 t) (iblk m c 3 t) (⟨t.val * 5000 + r.val, by omega⟩ : Fin 100000) r q ?_ ?_ ?_ ?_
  · intro k
    have hk : k.val < 64 := k.isLt
    show V m c main_arg0 (((cfg0.win 0).blk t).view.emb (ix2 r k)) = _
    rw [V_main_arg0]
    refine congrArg _ ?_
    funext a; apply Fin.ext
    match a with
    | ⟨0, _⟩ => show win0_0.index t (0 : Fin 2) * 5000 + 1 * r.val = t.val * 5000 + r.val; omega
    | ⟨1, _⟩ => show win0_0.index t (1 : Fin 2) * 64 + 1 * k.val = k.val; omega
  · intro k
    have hk : k.val < 64 := k.isLt
    show V m c main_arg2 (((cfg0.win 1).blk t).view.emb (ix2 k q)) = _
    rw [V_main_arg2]
    refine congrArg _ ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  · show V m c main_v13 (((cfg0.win 2).blk t).view.emb (ix2 (0 : Fin 1) q)) = _
    rw [← staged_bias m c q]
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * q.val = q.val; omega
  · unfold iblk
    refine (read_messages_block t (V m c (Pipeline.arrRef spec0 3)) (ix2 r q)).trans ?_
    refine (congrFun (staged_messages m c) _).trans ?_
    refine congrArg _ ?_
    funext a; apply Fin.ext
    match a with
    | ⟨0, _⟩ => show win0_3.index t (0 : Fin 2) * 5000 + 1 * r.val = t.val * 5000 + r.val; omega
    | ⟨1, _⟩ => show win0_3.index t (1 : Fin 2) * 64 + 1 * q.val = q.val; omega

/-- An index of the result array is in point t's block iff each coordinate is in the block's range on its axis. -/
theorem mem_block (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v14).slice (win0_4.rect t)).set ↔ _
  rw [View.set_slice_whole, Rect.mem_set_unit]
  exact Iff.rfl

/-- Every row p is in block p / 5000: the 20 blocks cover the result array. -/
theorem covered (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-- THE RESULT ARRAY after the run is the update of the argument arrays. -/
theorem final (c : Dev nD) : (dats m 0 c).arrAt 4 cfg0.N = result m c :=
  (dats m 0 c).arrAt_eq_of_cover 4 (result m c) (fun t _ => flushed_eq m c t) covered

/-- The kernel's run: every weakly fair execution terminates with the result array at the update of the argument arrays and
    the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.ReferenceValue.lean ====
/-
  The reference's result as the same function of the argument arrays. Its last three operations add, to the matrix product of the
  node states with the weights, the bias broadcast over the rows and then the aggregated messages: at node p, feature q,

      (Σ over k < 64 of x(p, k) · W(k, q)  +  b(q))  +  A(p, q),

  the product read as the sum over the contracted axis and the two broadcasts ([64] to a row [1, 64], the row to [100000, 64])
  read through to the bias at q. That is the whole-array update (Proof/NodeUpdate.lean) with A the reference's own aggregated
  messages, a term this module never opens.
-/
import proofs.«155253_j8907762172421_1_alg».proof.Proof.Gen.ReferenceIdeal.Read
import proofs.«155253_j8907762172421_1_alg».proof.Proof.NodeUpdate
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result is the update of its arguments, with its own aggregated messages. -/
theorem result_eq (x0 : FVec Ideal S100000x64 .f32) (x1 : FVec Ideal S3200000 .f32) (x2 : FVec Ideal S64x64 .f32) (x3 : FVec Ideal S64 .f32)
    (x4 x5 : IVec S3200000 32) :
    val_main_v17 (F := Ideal) x0 x1 x2 x3 x4 x5
      = Cert.NodeUpdate.update x0 x2 x3 (val_main_v12 (F := Ideal) x0 x1 x4 x5) := by
  funext i
  obtain ⟨p, q, rfl⟩ : ∃ (p : Fin 100000) (q : Fin 64), i = ix2 p q := ⟨i 0, i 1, eq_ix2 i⟩
  have el : ∀ k : Fin 64, lidx_main_v13 (ix2 p q) k = ix2 p k := fun k =>
    funext fun a => Fin.ext (by match a with | ⟨0, _⟩ => rfl | ⟨1, _⟩ => rfl)
  have er : ∀ k : Fin 64, ridx_main_v13 (ix2 p q) k = ix2 k q := fun k =>
    funext fun a => Fin.ext (by match a with | ⟨0, _⟩ => rfl | ⟨1, _⟩ => rfl)
  have eb : idx_main_v14 (idx_main_v15 (ix2 p q)) = ix1 q :=
    funext fun a => Fin.ext (by match a with | ⟨0, _⟩ => rfl)
  rw [val_main_v17_apply, val_main_v16_apply, val_main_v13_apply, val_main_v15_apply, val_main_v14_apply,
    Cert.NodeUpdate.update_apply]
  simp only [el, er, eb, Ideal.addf_def]

end Cert.ReferenceIdeal.RefValue

end
-- ==== Proof.lean ====
/-
  A message-passing layer's node update, computed two ways, is one function of the inputs on the extended reals.

  Both programs first aggregate messages with the same host operations: every edge gathers its source node's state (a negative
  index counted from the end), scales it by the edge's weight, and the scaled rows are summed into their destination rows of a zero
  array; call the result A. The reference then forms (x · W + b) + A with one matrix product over all 100000 nodes. The kernel
  computes the same expression 5000 nodes at a time: at each of 20 grid points it multiplies a block of node states by the whole
  weight matrix on the matrix unit (operands narrowed to a shorter float format, which is the identity on the extended reals; the
  accumulator starting from zero), adds the bias row broadcast down the block, adds the block of A, and writes the block back.

  At node p, feature q both are (Σ over k < 64 of x(p, k) · W(k, q) + b(q)) + A(p, q): the same finite sum and the same two
  additions in the same order, so the two results agree for ALL inputs and the finiteness of the inputs is never used.
  Proof/NodeUpdate.lean states that function; Proof/BlockValue.lean reads the kernel body's stored value at an element;
  Proof/ArrayValue.lean assembles the 20 blocks into the result array; Proof/ReferenceValue.lean reads the reference's last
  operations at an element. The three frames are the programs' runs with the values dropped, and the idealization rewrote no
  operation, so there is nothing to preserve.
-/
import proofs.«155253_j8907762172421_1_alg».proof.Defs
import proofs.«155253_j8907762172421_1_alg».proof.Proof.Gen.Kernel
import proofs.«155253_j8907762172421_1_alg».proof.Proof.Gen.Kernel.Skeleton
import proofs.«155253_j8907762172421_1_alg».proof.Proof.Gen.Kernel.Launch
import proofs.«155253_j8907762172421_1_alg».proof.Proof.Gen.Kernel.Points
import proofs.«155253_j8907762172421_1_alg».proof.Proof.Gen.Kernel.Frame
import proofs.«155253_j8907762172421_1_alg».proof.Proof.Gen.KernelIdeal
import proofs.«155253_j8907762172421_1_alg».proof.Proof.Gen.KernelIdeal.Skeleton
import proofs.«155253_j8907762172421_1_alg».proof.Proof.Gen.KernelIdeal.Launch
import proofs.«155253_j8907762172421_1_alg».proof.Proof.Gen.KernelIdeal.Points
import proofs.«155253_j8907762172421_1_alg».proof.Proof.Gen.KernelIdeal.Frame
import proofs.«155253_j8907762172421_1_alg».proof.Proof.Gen.ReferenceIdeal
import proofs.«155253_j8907762172421_1_alg».proof.Proof.Gen.Pre_finite_inputs
import proofs.«155253_j8907762172421_1_alg».proof.Proof.Gen.KernelIdeal.Value
import proofs.«155253_j8907762172421_1_alg».proof.Proof.Gen.ReferenceIdeal.Run
import proofs.«155253_j8907762172421_1_alg».proof.Proof.Gen.ReferenceIdeal.Read
import proofs.«155253_j8907762172421_1_alg».proof.Proof.ArrayValue
import proofs.«155253_j8907762172421_1_alg».proof.Proof.ReferenceValue
import Idealize.ShloMosaic.Adequacy
import Idealize.ShloMosaic.Init

noncomputable section

namespace Cert.Proof

open Idealize.ShloMosaic Idealize.ShloMosaic.TcCoe Idealize.SL.Sem

/-- The two programs aggregate messages by the same operations on the same shapes: the reference's aggregated messages are the
    kernel's, as functions of the node states, the edge weights and the edges' two index arrays. -/
theorem messages_eq (x : FVec Ideal Cert.KernelIdeal.S100000x64 .f32) (e : FVec Ideal Cert.KernelIdeal.S3200000 .f32)
    (src dst : IVec Cert.KernelIdeal.S3200000 32) :
    Cert.ReferenceIdeal.Read.val_main_v12 (F := Ideal) x e src dst = Cert.KernelIdeal.ArrayValue.messages x e src dst := rfl

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the node update of those arguments: the kernel's result
    array assembled from its 20 blocks, the reference's read off its last three operations, the aggregated messages one term. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  show _ = Cert.KernelIdeal.ArrayValue.result m c
  rw [Cert.ReferenceIdeal.Read.val_main_v17_eq, Cert.ReferenceIdeal.RefValue.result_eq, messages_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
